-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S512x512 .f32) (main_arg9 : FVec F S512x512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S512x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S1x512 : Shape := ⟨2, ![1, 512]⟩

abbrev nBuf : Space → Nat
  | .hbm => 18
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1536, .f32⟩
  | .hbm, ⟨12, _⟩ => ⟨S512x1536, .bf16⟩
  | .hbm, ⟨13, _⟩ => ⟨S512x1536, .f32⟩
  | .hbm, ⟨14, _⟩ => ⟨S512x1536, .bf16⟩
  | .hbm, ⟨15, _⟩ => ⟨S1536, .f32⟩
  | .hbm, ⟨16, _⟩ => ⟨S1x1536, .f32⟩
  | .hbm, ⟨17, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S512x512, .f32⟩
  | .local _ .vmem, ⟨8, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  shapeCasts_S1536_S1x1536 : S1536.ShapeCasts S1x1536
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S512x1536_o0_0_S512x512 : S512x1536.Slices ![0, 0] S512x512
  slices_S1x1536_o0_0_S1x512 : S1x1536.Slices ![0, 0] S1x512
  broadcasts_S1x512_S512x512 : S1x512.Broadcasts S512x512
  slices_S512x1536_o0_512_S512x512 : S512x1536.Slices ![0, 512] S512x512
  slices_S1x1536_o0_512_S1x512 : S1x1536.Slices ![0, 512] S1x512
  slices_S512x1536_o0_1024_S512x512 : S512x1536.Slices ![0, 1024] S512x512
  slices_S1x1536_o0_1024_S1x512 : S1x1536.Slices ![0, 1024] S1x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x1536 : Shape := ⟨2, ![512, 1536]⟩
abbrev S16384x1536 : Shape := ⟨2, ![16384, 1536]⟩
abbrev S1x512 : Shape := ⟨2, ![1, 512]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1536, .f32⟩
  | .hbm, ⟨12, _⟩ => ⟨S512x1536, .f32⟩
  | .hbm, ⟨13, _⟩ => ⟨S16384x1536, .f32⟩
  | .hbm, ⟨14, _⟩ => ⟨S16384x1536, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S1x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S512x512_S512x512_S512x512_S512x1536_d1 : Shape.Concatenates [S512x512, S512x512, S512x512] S512x1536 1
  slices_S16384x1536_S16384x512_0_0 : S16384x1536.Slices ![0, 0] S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S16384x1536_S16384x512_0_512 : S16384x1536.Slices ![0, 512] S16384x512
  slices_S16384x1536_S16384x512_0_1024 : S16384x1536.Slices ![0, 1024] S16384x512
  dot_S16384x512_S512x1536_S16384x1536_1_0_0_1_n_n_wf : DotDims.WF S16384x512 S512x1536 S16384x1536 [1] [0] [0] [1] [] []

variable [Facts₀]

def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf

class Facts : Prop extends Facts₀ where

variable [Facts]
-- ==== Proof.KernelFrame.lean ====
/-
  The frame of the gated recurrent cell's program: its entry point joins the three input-side weight matrices, the
  three hidden-side ones and the three bias vectors (a join, a change of format, a reshape), then runs one pipelined
  region over 32 blocks of 512 rows. Every execution ends, nothing faults, and the eleven arguments end as they
  began: the host operations write only their own results, and the region writes only its result array.

  Per grid point the body reads the two row blocks, the two joined weight matrices and the bias row whole, and
  overwrites its whole output block with one value computed from them; the three small operands have a constant
  block index, so their staging buffers still hold the one block at every later point.
-/
import proofs.«108295_j40003325395615_1_alg».proof.Proof.Gen.Kernel.Launch
import proofs.«108295_j40003325395615_1_alg».proof.Proof.Gen.Kernel.Skeleton
import proofs.«108295_j40003325395615_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the region -/

/-- What core `c`'s buffers hold when the region is entered: the launch contents run through the six host operations. -/
abbrev V (c : Dev nD) (b : Ref sig .tc) : Buf (Elt F) ((c : Thread nD τ).loc b) := StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The entry point is the six host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the six host operations writes is found by the region as launched. -/
theorem V_of_not_written (c : Dev nD) (b : Ref sig .tc)
    (h : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose block the body leaves in place holds that block at every point, fetched there or not: where
    it is not fetched its block index has not moved (the two row blocks are fetched at every point; the joined weights
    and the bias row have a constant block index and are fetched once). One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state that has every window's array at what the proof data computes and every other unscoped buffer as
    the region found it, the eleven arguments are as launched: the two row-block arguments are input windows' arrays,
    which the pipeline leaves as found; the nine weight and bias arguments are staged by no window; and the region found
    all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses -/

abbrev rRows : Rect S512x512 := Rect.unit (s := S512x512) ![0, 0] S512x512.size inb_S512x512_S512x512_0_0
abbrev rWeights : Rect S512x1536 := Rect.unit (s := S512x1536) ![0, 0] S512x1536.size inb_S512x1536_S512x1536_0_0
abbrev rBias : Rect S1x1536 := Rect.unit (s := S1x1536) ![0, 0] S1x1536.size inb_S1x1536_S1x1536_0_0

/-- What the body leaves in the output block's buffer, from the five input blocks: its one store, over the whole block,
    of the new state computed from what the five loads read. -/
def outBlock (x h : Vec F S512x512 .f32) (wi wh : Vec F S512x1536 .bf16) (b : Vec F S1x1536 .f32) : Vec F S512x512 .f32 :=
  View.canon [⟨rRows, k0_pay1 (View.ld x rRows) (View.ld h rRows) (View.ld wi rWeights) (View.ld wh rWeights) (View.ld b rBias)⟩]

/-- The one store covers the buffer. -/
theorem outBlock_cover (p0 : Vec F S512x512 .f32) (y : S512x512.Idx) :
    ∃ pc ∈ ([⟨rRows, p0⟩] : List (View.Piece (Elt F) S512x512 .f32)), y ∈ pc.1.set :=
  View.cover_of_tiled [⟨rRows, p0⟩] S512x512.size (by rfl) y

/-! ## The body's triple -/

set_option maxHeartbeats 1000000 in
/-- The body on whole staging buffers — the five inputs' at the contents `x`, `h`, `wi`, `wh`, `b`, the output's at
    anything — ends with the inputs' as they were and the output's at `outBlock` of them: five loads, a load of the
    output buffer whose value nothing uses, and one covering store. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1536 .bf16) (harg3 : arg3.IsWhole) (arg4 : Memref sig .tc .vmem S512x1536 .bf16) (harg4 : arg4.IsWhole)
    (arg5 : Memref sig .tc .vmem S1x1536 .f32) (harg5 : arg5.IsWhole) (arg6 : Memref sig .tc .vmem S512x512 .f32) (harg6 : arg6.IsWhole)
    (x h : Vec F S512x512 .f32) (wi wh : Vec F S512x1536 .bf16) (b : Vec F S1x1536 .f32) (K : PUnit → sProp 𝕄) :
    iprop(owns (c : Thread nD τ) arg1 fullShare x ∗ owns (c : Thread nD τ) arg2 fullShare h ∗ owns (c : Thread nD τ) arg3 fullShare wi
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wi
            ∗ owns (c : Thread nD τ) arg4 fullShare wh ∗ owns (c : Thread nD τ) arg5 fullShare b
            ∗ owns (c : Thread nD τ) arg6 fullShare (outBlock x h wi wh b)) -∗ K ⟨⟩))
      ⊢ wp frame (wpE (defs₀ (F := F)) Variants.none c none) E (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

/-! ## The pipeline's proof data -/

/-- On core `c`: the arrays as the region finds them; after the body at point `t` each input's buffer at its block and
    the output's at `outBlock` of the five input blocks; the region's invariant is the plain one (no scratch, the
    generator register untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry point ends, every window's array at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealFrame.lean ====
/-
  The frame of the gated recurrent cell's program: its entry point joins the three input-side weight matrices, the
  three hidden-side ones and the three bias vectors (a join, a change of format, a reshape), then runs one pipelined
  region over 32 blocks of 512 rows. Every execution ends, nothing faults, and the eleven arguments end as they
  began: the host operations write only their own results, and the region writes only its result array.

  Per grid point the body reads the two row blocks, the two joined weight matrices and the bias row whole, and
  overwrites its whole output block with one value computed from them; the three small operands have a constant
  block index, so their staging buffers still hold the one block at every later point.
-/
import proofs.«108295_j40003325395615_1_alg».proof.Proof.Gen.KernelIdeal.Launch
import proofs.«108295_j40003325395615_1_alg».proof.Proof.Gen.KernelIdeal.Skeleton
import proofs.«108295_j40003325395615_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the region -/

/-- What core `c`'s buffers hold when the region is entered: the launch contents run through the six host operations. -/
abbrev V (c : Dev nD) (b : Ref sig .tc) : Buf (Elt F) ((c : Thread nD τ).loc b) := StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- The entry point is the six host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the six host operations writes is found by the region as launched. -/
theorem V_of_not_written (c : Dev nD) (b : Ref sig .tc)
    (h : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose block the body leaves in place holds that block at every point, fetched there or not: where
    it is not fetched its block index has not moved (the two row blocks are fetched at every point; the joined weights
    and the bias row have a constant block index and are fetched once). One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state that has every window's array at what the proof data computes and every other unscoped buffer as
    the region found it, the eleven arguments are as launched: the two row-block arguments are input windows' arrays,
    which the pipeline leaves as found; the nine weight and bias arguments are staged by no window; and the region found
    all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses -/

abbrev rRows : Rect S512x512 := Rect.unit (s := S512x512) ![0, 0] S512x512.size inb_S512x512_S512x512_0_0
abbrev rWeights : Rect S512x1536 := Rect.unit (s := S512x1536) ![0, 0] S512x1536.size inb_S512x1536_S512x1536_0_0
abbrev rBias : Rect S1x1536 := Rect.unit (s := S1x1536) ![0, 0] S1x1536.size inb_S1x1536_S1x1536_0_0

/-- What the body leaves in the output block's buffer, from the five input blocks: its one store, over the whole block,
    of the new state computed from what the five loads read. -/
def outBlock (x h : Vec F S512x512 .f32) (wi wh : Vec F S512x1536 .bf16) (b : Vec F S1x1536 .f32) : Vec F S512x512 .f32 :=
  View.canon [⟨rRows, k0_pay1 (View.ld x rRows) (View.ld h rRows) (View.ld wi rWeights) (View.ld wh rWeights) (View.ld b rBias)⟩]

/-- The one store covers the buffer. -/
theorem outBlock_cover (p0 : Vec F S512x512 .f32) (y : S512x512.Idx) :
    ∃ pc ∈ ([⟨rRows, p0⟩] : List (View.Piece (Elt F) S512x512 .f32)), y ∈ pc.1.set :=
  View.cover_of_tiled [⟨rRows, p0⟩] S512x512.size (by rfl) y

/-! ## The body's triple -/

set_option maxHeartbeats 1000000 in
/-- The body on whole staging buffers — the five inputs' at the contents `x`, `h`, `wi`, `wh`, `b`, the output's at
    anything — ends with the inputs' as they were and the output's at `outBlock` of them: five loads, a load of the
    output buffer whose value nothing uses, and one covering store. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1536 .bf16) (harg3 : arg3.IsWhole) (arg4 : Memref sig .tc .vmem S512x1536 .bf16) (harg4 : arg4.IsWhole)
    (arg5 : Memref sig .tc .vmem S1x1536 .f32) (harg5 : arg5.IsWhole) (arg6 : Memref sig .tc .vmem S512x512 .f32) (harg6 : arg6.IsWhole)
    (x h : Vec F S512x512 .f32) (wi wh : Vec F S512x1536 .bf16) (b : Vec F S1x1536 .f32) (K : PUnit → sProp 𝕄) :
    iprop(owns (c : Thread nD τ) arg1 fullShare x ∗ owns (c : Thread nD τ) arg2 fullShare h ∗ owns (c : Thread nD τ) arg3 fullShare wi
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wi
            ∗ owns (c : Thread nD τ) arg4 fullShare wh ∗ owns (c : Thread nD τ) arg5 fullShare b
            ∗ owns (c : Thread nD τ) arg6 fullShare (outBlock x h wi wh b)) -∗ K ⟨⟩))
      ⊢ wp frame (wpE (defs₀ (F := F)) Variants.none c none) E (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

/-! ## The pipeline's proof data -/

/-- On core `c`: the arrays as the region finds them; after the body at point `t` each input's buffer at its block and
    the output's at `outBlock` of the five input blocks; the region's invariant is the plain one (no scratch, the
    generator register untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry point ends, every window's array at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and its eleven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.GruCell.lean ====
/-
  One entry of a gated recurrent cell's new state, over the extended reals.

  For a batch row with input row x and previous state row h (512 entries each), joined input-side weights Wi and
  hidden-side weights Wh (512 by 1536: the reset, update and candidate blocks side by side) and the three biases:
    gi c = ∑ k, x k * Wi k c          gh c = ∑ k, h k * Wh k c
    r = gate (gi j + gh j + br j)                      (reset gate, columns 0 .. 511)
    z = gate (gi (512 + j) + gh (512 + j) + bz j)      (update gate, columns 512 .. 1023)
    n = tanh (gi (1024 + j) + r * gh (1024 + j) + bn j)   (candidate, columns 1024 .. 1535)
    new j = (1 - z) * n + z * h j
  where gate a = 1 / (1 + e^(-a)), the logistic function. The constant 1 is kept as the float word both programs
  print for it; that it denotes 1 is used once, to identify the logistic function with the quotient.
-/
import Idealize.ShloMosaic.PureOps.Ideal
import Idealize.ShloMosaic.PureOps.IdealRules
import Idealize.ShloMosaic.Lib.ValueIdx

noncomputable section

open Idealize.ShloMosaic Idealize.ShloMosaic.ValueIdx
open scoped BigOperators

namespace Cert.GruCell

/-- The float word of the constant one, read at the ideal values. -/
abbrev one : EReal := Ideal.ofBits .f32 0x3F800000#32

theorem one_eq : one = 1 := IdealRules.sign_bit.ideal_onePat .f32

/-- The logistic function spelt as a quotient: 1 / (1 + e^(-a)). -/
def gate (a : EReal) : EReal := Ideal.div one (one + Ideal.exp (-a))

/-- The logistic function is that quotient. -/
theorem logistic_eq_gate (a : EReal) : Ideal.logistic a = gate a := by
  unfold gate Ideal.logistic; rw [one_eq]

/-- Column j of the reset block, of the update block and of the candidate block of a joined 1536-column matrix. -/
abbrev colR (j : Fin 512) : Fin 1536 := ⟨j.val, by have := j.isLt; omega⟩
abbrev colZ (j : Fin 512) : Fin 1536 := ⟨512 + j.val, by have := j.isLt; omega⟩
abbrev colN (j : Fin 512) : Fin 1536 := ⟨1024 + j.val, by have := j.isLt; omega⟩

/-- Entry j of the new state of one batch row. -/
def cellAt (xr hr : Fin 512 → EReal) (Wi Wh : Fin 512 → Fin 1536 → EReal) (br bz bn : Fin 512 → EReal) (j : Fin 512) : EReal :=
  let gi (c : Fin 1536) : EReal := ∑ k : Fin 512, xr k * Wi k c
  let gh (c : Fin 1536) : EReal := ∑ k : Fin 512, hr k * Wh k c
  let r := gate (gi (colR j) + gh (colR j) + br j)
  let z := gate (gi (colZ j) + gh (colZ j) + bz j)
  let n := Ideal.tanh (gi (colN j) + r * gh (colN j) + bn j)
  (one - z) * n + z * hr j

/-- The whole new state: entry (b, j) is `cellAt` of rows b of the input and of the previous state. -/
def newState (x h : (⟨2, ![16384, 512]⟩ : Shape).Idx → EReal) (Wi Wh : (⟨2, ![512, 1536]⟩ : Shape).Idx → EReal)
    (br bz bn : Fin 512 → EReal) : (⟨2, ![16384, 512]⟩ : Shape).Idx → EReal := fun i =>
  cellAt (fun k => x (ix2 (n0 := 16384) (n1 := 512) ⟨(i 0).val, (i 0).isLt⟩ k))
    (fun k => h (ix2 (n0 := 16384) (n1 := 512) ⟨(i 0).val, (i 0).isLt⟩ k))
    (fun k c => Wi (ix2 k c)) (fun k c => Wh (ix2 k c)) br bz bn ⟨(i 1).val, (i 1).isLt⟩

end Cert.GruCell

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.BlockEntry.lean ====
/-
  One entry of what the kernel body stores, at the ideal values.

  The body holds a block of 512 batch rows. Entry (p, q) of the value it stores is the gated recurrent cell's new state
  for row p of the block at column q: the two matrix products of the row blocks with the joined weights read as plain
  sums, the reset, update and candidate columns of each product being columns q, 512 + q and 1024 + q, and the bias row
  read at the same three columns.
-/
import proofs.«108295_j40003325395615_1_alg».proof.Proof.Gen.KernelIdeal.Skeleton
import proofs.«108295_j40003325395615_1_alg».proof.Proof.GruCell
import proofs.«108295_j40003325395615_1_alg».proof.Proof.LibPlainMatmul
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.BlockEntry

open Cert.KernelIdeal Cert.KernelIdeal.Gen Cert.GruCell

/-- The printed dimension numbers of the two products are those of a plain 512 x 512 by 512 x 1536 product. -/
theorem dot_plain : dot_S512x512_S512x1536_S512x1536_1_0_0_1_n_n = DotDims.plain 512 512 1536 := rfl

/-- A row block times a joined weight matrix, accumulated from zero, at row p and column c: the sum over the 512
    contracted positions. Narrowing the row block's format changes nothing at the ideal values. -/
theorem product_at (x : FVec Ideal S512x512 .f32) (w : FVec Ideal S512x1536 .bf16) (p : Fin 512) (c : Fin 1536) :
    matmul (F := Ideal) (φ₁ := .bf16) (φ₂ := .bf16) dot_S512x512_S512x1536_S512x1536_1_0_0_1_n_n none
        (truncf (F := Ideal) .bf16 x bitsLt_bf16_f32) (shapeCast (α := Ideal .bf16) S512x1536 w shapeCasts_S512x1536_S512x1536)
        (constant (F := Ideal) S512x1536 .f32 0x00000000#32) (ix2 p c)
      = ∑ k : Fin 512, x (ix2 p k) * w (ix2 k c) := by
  rw [shapeCast_self, dot_plain]
  exact Cert.LibPlainMatmul.matmul_plain_apply (φ₁ := .bf16) (φ₂ := .bf16) none (truncf (F := Ideal) .bf16 x bitsLt_bf16_f32) w p c

/-- Columns off .. off + 511 of a 512 x 1536 matrix, at (p, q): the matrix at (p, c) with c = off + q. -/
theorem slice_at (v : FVec Ideal S512x1536 .f32) (off : Nat) (hs : S512x1536.Slices ![0, off] S512x512) (p q : Fin 512)
    (c : Fin 1536) (hc : c.val = off + q.val) :
    extractStridedSlice S512x512 ![0, off] v hs (ix2 p q) = v (ix2 p c) :=
  extractStridedSlice_apply ![0, off] v hs (ix2 p q) (ix2 p c) (fun a => match a with
    | ⟨0, _⟩ => by show p.val = 0 + p.val; omega
    | ⟨1, _⟩ => by show c.val = off + q.val; exact hc)

theorem sliceR_at (v : FVec Ideal S512x1536 .f32) (p q : Fin 512) :
    extractStridedSlice S512x512 ![0, 0] v slices_S512x1536_o0_0_S512x512 (ix2 p q) = v (ix2 p (colR q)) :=
  slice_at v 0 _ p q (colR q) (by show q.val = 0 + q.val; omega)
theorem sliceZ_at (v : FVec Ideal S512x1536 .f32) (p q : Fin 512) :
    extractStridedSlice S512x512 ![0, 512] v slices_S512x1536_o0_512_S512x512 (ix2 p q) = v (ix2 p (colZ q)) :=
  slice_at v 512 _ p q (colZ q) rfl
theorem sliceN_at (v : FVec Ideal S512x1536 .f32) (p q : Fin 512) :
    extractStridedSlice S512x512 ![0, 1024] v slices_S512x1536_o0_1024_S512x512 (ix2 p q) = v (ix2 p (colN q)) :=
  slice_at v 1024 _ p q (colN q) rfl

/-- Columns off .. off + 511 of the bias row, repeated down the 512 rows, at (p, q): the bias row at column off + q. -/
theorem bias_at (b : FVec Ideal S1x1536 .f32) (off : Nat) (hs : S1x1536.Slices ![0, off] S1x512) (p q : Fin 512)
    (c : Fin 1536) (hc : c.val = off + q.val) :
    broadcastTo S512x512 (extractStridedSlice S1x512 ![0, off] (shapeCast S1x1536 b shapeCasts_S1x1536_S1x1536) hs)
        broadcasts_S1x512_S512x512 (ix2 p q) = b (ix2 0 c) := by
  rw [shapeCast_self]
  refine (broadcastTo_apply _ broadcasts_S1x512_S512x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])).trans ?_
  exact extractStridedSlice_apply ![0, off] b hs (ix2 0 q) (ix2 0 c) (fun a => match a with
    | ⟨0, _⟩ => by show (0 : Nat) = 0 + 0; rfl
    | ⟨1, _⟩ => by show c.val = off + q.val; exact hc)

theorem biasR_at (b : FVec Ideal S1x1536 .f32) (p q : Fin 512) :
    broadcastTo S512x512 (extractStridedSlice S1x512 ![0, 0] (shapeCast S1x1536 b shapeCasts_S1x1536_S1x1536) slices_S1x1536_o0_0_S1x512)
        broadcasts_S1x512_S512x512 (ix2 p q) = b (ix2 0 (colR q)) :=
  bias_at b 0 _ p q (colR q) (by show q.val = 0 + q.val; omega)
theorem biasZ_at (b : FVec Ideal S1x1536 .f32) (p q : Fin 512) :
    broadcastTo S512x512 (extractStridedSlice S1x512 ![0, 512] (shapeCast S1x1536 b shapeCasts_S1x1536_S1x1536) slices_S1x1536_o0_512_S1x512)
        broadcasts_S1x512_S512x512 (ix2 p q) = b (ix2 0 (colZ q)) :=
  bias_at b 512 _ p q (colZ q) rfl
theorem biasN_at (b : FVec Ideal S1x1536 .f32) (p q : Fin 512) :
    broadcastTo S512x512 (extractStridedSlice S1x512 ![0, 1024] (shapeCast S1x1536 b shapeCasts_S1x1536_S1x1536) slices_S1x1536_o0_1024_S1x512)
        broadcasts_S1x512_S512x512 (ix2 p q) = b (ix2 0 (colN q)) :=
  bias_at b 1024 _ p q (colN q) rfl

/-- Entry (p, q) of the stored value is the cell's new state for row p of the block, at column q. -/
theorem pay_at (x h : Vec Ideal S512x512 .f32) (wi wh : Vec Ideal S512x1536 .bf16) (b : Vec Ideal S1x1536 .f32) (p q : Fin 512) :
    k0_pay1 (F := Ideal) x h wi wh b (ix2 p q)
      = cellAt (fun k => x (ix2 p k)) (fun k => h (ix2 p k)) (fun k c => wi (ix2 k c)) (fun k c => wh (ix2 k c))
          (fun j => b (ix2 0 (colR j))) (fun j => b (ix2 0 (colZ j))) (fun j => b (ix2 0 (colN j))) q := by
  unfold k0_pay1 cellAt
  simp only [Idealize.ShloMosaic.addf, Idealize.ShloMosaic.subf, Idealize.ShloMosaic.mulf, Idealize.ShloMosaic.logistic,
    Idealize.ShloMosaic.tanh, Idealize.ShloMosaic.broadcast]
  simp only [sliceR_at, sliceZ_at, sliceN_at, biasR_at, biasZ_at, biasN_at, product_at]
  simp only [Ideal.addf_def, Ideal.subf_def, Ideal.mulf_def, Ideal.logistic_def, Ideal.tanh_def, Ideal.ofBits_def,
    logistic_eq_gate]

end Cert.KernelIdeal.BlockEntry

end
-- ==== Proof.KernelResult.lean ====
/-
  The idealized kernel program's result array, whole.

  Grid point t writes back block t of the result: rows 512 t .. 512 t + 511, all 512 columns. Entry (p, q) of what it
  writes is the cell's new state for row p of the two row blocks it fetched, which are rows 512 t + p of the two row
  arguments; the joined weights and the bias row are the same at every point. So what point t writes back is block t
  of one whole-array function of what the region found, the 32 blocks tile the result array, and the array ends at that
  function.
-/
import proofs.«108295_j40003325395615_1_alg».proof.Proof.KernelIdealFrame
import proofs.«108295_j40003325395615_1_alg».proof.Proof.BlockEntry
import proofs.«108295_j40003325395615_1_alg».proof.Proof.GruCell
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open Idealize.ShloMosaic.Pipeline (Dat Cfg Window)

namespace Cert.KernelIdeal.Result

open Cert.KernelIdeal Cert.KernelIdeal.Gen Cert.KernelIdeal.Hand Cert.KernelIdeal.BlockEntry Cert.GruCell

variable (m : (ℓ : Loc nD τ sig) → Buf (Elt Ideal) ℓ) (ρ : Dev nD → PrngReg)

theorem hz : (![0, 0] : Fin 2 → Nat) = fun _ => 0 := funext fun a => by fin_cases a <;> rfl

/-- The new state computed from what the region finds: the two row arguments, the joined weights, and the bias row read
    at its reset, update and candidate columns. -/
def outArr (c : Dev nD) : S16384x512.Idx → EReal :=
  newState (V m c main_arg0 : S16384x512.Idx → EReal) (V m c main_arg1 : S16384x512.Idx → EReal)
    (V m c main_v1 : S512x1536.Idx → EReal) (V m c main_v3 : S512x1536.Idx → EReal)
    (fun j => (V m c main_v5 : S1x1536.Idx → EReal) (ix2 0 (colR j)))
    (fun j => (V m c main_v5 : S1x1536.Idx → EReal) (ix2 0 (colZ j)))
    (fun j => (V m c main_v5 : S1x1536.Idx → EReal) (ix2 0 (colN j)))

/-- The cell's entry depends on its eight arguments only through their values. -/
theorem cellAt_congr {xr xr' hr hr' : Fin 512 → EReal} {Wi Wi' Wh Wh' : Fin 512 → Fin 1536 → EReal} {br br' bz bz' bn bn' : Fin 512 → EReal}
    {j j' : Fin 512} (h1 : xr = xr') (h2 : hr = hr') (h3 : Wi = Wi') (h4 : Wh = Wh') (h5 : br = br') (h6 : bz = bz') (h7 : bn = bn')
    (h8 : j = j') : cellAt xr hr Wi Wh br bz bn j = cellAt xr' hr' Wi' Wh' br' bz' bn' j' := by
  subst h1 h2 h3 h4 h5 h6 h7 h8; rfl

/-- The block indices over the grid: the two row blocks move with the result's block, which is block t of the rows; the
    weights and the bias row stay at their one block. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- What point t writes back is block t of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold outBlock
  rw [View.canon_unit_zero hz]
  simp only [View.ld_unit_zero (S := S512x512) hz, View.ld_unit_zero (S := S512x1536) hz, View.ld_unit_zero (S := S1x1536) hz]
  obtain ⟨e00, e01, e10, e11, e20, e21, e30, e31, e40, e41, e51⟩ := idx_facts t
  funext y
  obtain ⟨p, q, rfl⟩ : ∃ (p : Fin 512) (q : Fin 512), y = ix2 p q := ⟨y 0, y 1, eq_ix2 y⟩
  show k0_pay1 (F := Ideal) (iblk m c 0 t) (iblk m c 1 t) (iblk m c 2 t) (iblk m c 3 t) (iblk m c 4 t) (ix2 p q)
    = outArr m c (((cfg0.win 5).blk t).view.emb (ix2 p q))
  refine (pay_at (iblk m c 0 t) (iblk m c 1 t) (iblk m c 2 t) (iblk m c 3 t) (iblk m c 4 t) p q).trans ?_
  unfold outArr newState
  refine cellAt_congr (funext fun k => ?_) (funext fun k => ?_) (funext fun k => funext fun cc => ?_)
    (funext fun k => funext fun cc => ?_) (funext fun j => ?_) (funext fun j => ?_) (funext fun j => ?_) (Fin.ext ?_)
  · show (V m c main_arg0 : S16384x512.Idx → EReal) (((cfg0.win 0).blk t).view.emb (ix2 p k)) = (V m c main_arg0 : S16384x512.Idx → EReal) _
    refine congrArg _ (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 512 + 1 * k.val = k.val; omega
  · show (V m c main_arg1 : S16384x512.Idx → EReal) (((cfg0.win 1).blk t).view.emb (ix2 p k)) = (V m c main_arg1 : S16384x512.Idx → EReal) _
    refine congrArg _ (funext fun a => Fin.ext ?_)
    match a with
    | ⟨0, _⟩ => show win0_1.index t (0 : Fin 2) * 512 + 1 * p.val = win0_5.index t (0 : Fin 2) * 512 + 1 * p.val; omega
    | ⟨1, _⟩ => show win0_1.index t (1 : Fin 2) * 512 + 1 * k.val = k.val; omega
  · show (V m c main_v1 : S512x1536.Idx → EReal) (((cfg0.win 2).blk t).view.emb (ix2 k cc)) = (V m c main_v1 : S512x1536.Idx → EReal) (ix2 k cc)
    refine congrArg _ (funext fun a => Fin.ext ?_)
    match a with
    | ⟨0, _⟩ => show win0_2.index t (0 : Fin 2) * 512 + 1 * k.val = k.val; omega
    | ⟨1, _⟩ => show win0_2.index t (1 : Fin 2) * 1536 + 1 * cc.val = cc.val; omega
  · show (V m c main_v3 : S512x1536.Idx → EReal) (((cfg0.win 3).blk t).view.emb (ix2 k cc)) = (V m c main_v3 : S512x1536.Idx → EReal) (ix2 k cc)
    refine congrArg _ (funext fun a => Fin.ext ?_)
    match a with
    | ⟨0, _⟩ => show win0_3.index t (0 : Fin 2) * 512 + 1 * k.val = k.val; omega
    | ⟨1, _⟩ => show win0_3.index t (1 : Fin 2) * 1536 + 1 * cc.val = cc.val; omega
  · show (V m c main_v5 : S1x1536.Idx → EReal) (((cfg0.win 4).blk t).view.emb (ix2 0 (colR j))) = (V m c main_v5 : S1x1536.Idx → EReal) (ix2 0 (colR j))
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * (colR j).val = (colR j).val; omega
  · show (V m c main_v5 : S1x1536.Idx → EReal) (((cfg0.win 4).blk t).view.emb (ix2 0 (colZ j))) = (V m c main_v5 : S1x1536.Idx → EReal) (ix2 0 (colZ j))
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * (colZ j).val = (colZ j).val; omega
  · show (V m c main_v5 : S1x1536.Idx → EReal) (((cfg0.win 4).blk t).view.emb (ix2 0 (colN j))) = (V m c main_v5 : S1x1536.Idx → EReal) (ix2 0 (colN j))
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * (colN j).val = (colN j).val; omega
  · show q.val = win0_5.index t (1 : Fin 2) * 512 + 1 * q.val; omega

/-- An index of the result array is in point t's block iff each coordinate is in the block's range on its axis. -/
theorem mem_blk (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v6).slice (win0_5.rect t)).set ↔ _
  rw [View.set_slice_whole, Rect.mem_set_unit]
  exact Iff.rfl

/-- The 32 blocks of rows tile the result array: row r lies in block r / 512. -/
theorem cover (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The result array after the run. -/
theorem final (c : Dev nD) : (dats m 0 c).arrAt 5 cfg0.N = outArr m c :=
  (dats m 0 c).arrAt_eq_of_cover 5 (outArr m c) (fun t _ => flushed_eq m c t) cover

/-- The run, read: the result array ends at `outArr`, the eleven arguments unchanged. -/
theorem run_value : θ_run defs (onTc (τ := τ) (main (F := Ideal))) ⟨m, fun _ => 0, ρ⟩ (fun r => ∀ c : Dev nD,
      r.2.mem ((c.tc : Thread nD τ).loc main_v6) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 5).trans (final m c), args_kept m (dats m) (A_eq m) r h c⟩) (run_main m ρ)

end Cert.KernelIdeal.Result

end
-- ==== Proof.HostJoin.lean ====
/-
  What the region finds in the three operands the entry point prepares, at the ideal values.

  The joined input-side weights are the three input-side matrices side by side, then narrowed in format, which changes
  nothing at the ideal values; likewise the hidden-side ones. The bias row is the three bias vectors end to end, seen as
  one row of 1536 entries: its entry at column j is the reset bias at j, at column 512 + j the update bias at j, and at
  column 1024 + j the candidate bias at j.
-/
import proofs.«108295_j40003325395615_1_alg».proof.Proof.KernelIdealFrame
import proofs.«108295_j40003325395615_1_alg».proof.Proof.GruCell
import Idealize.ShloMosaic.Lib.StableHlo.Run
import Idealize.ShloMosaic.Lib.Pipeline.Value
import Idealize.ShloMosaic.Lib.ValueIdx

noncomputable section

open Idealize.ShloMosaic Idealize.ShloMosaic.ValueIdx Idealize.ShloMosaic.TcCoe Idealize.SL.Sem Idealize.ShloMosaic.StableHlo

namespace Cert.KernelIdeal.HostJoin

open Cert.KernelIdeal Cert.KernelIdeal.Gen Cert.KernelIdeal.Hand Cert.GruCell

variable (m : (ℓ : Loc nD τ sig) → Buf (Elt Ideal) ℓ)

/-- Three matrices side by side. -/
abbrev join3 (a b c : S512x512.Idx → EReal) : S512x1536.Idx → EReal :=
  concatenate S512x1536 1 [⟨S512x512, a⟩, ⟨S512x512, b⟩, ⟨S512x512, c⟩] concatenates_S512x512_S512x512_S512x512_S512x1536_d1

/-- The region finds the joined input-side weights: the three input-side matrices side by side. -/
theorem V_wi (c : Dev nD) : (V m c main_v1 : S512x1536.Idx → EReal)
    = join3 (m ((c : Thread nD τ).loc main_arg2)) (m ((c : Thread nD τ).loc main_arg5)) (m ((c : Thread nD τ).loc main_arg8)) := by
  dsimp only [V, hostOps0]; after_results; rfl

/-- The region finds the joined hidden-side weights: the three hidden-side matrices side by side. -/
theorem V_wh (c : Dev nD) : (V m c main_v3 : S512x1536.Idx → EReal)
    = join3 (m ((c : Thread nD τ).loc main_arg3)) (m ((c : Thread nD τ).loc main_arg6)) (m ((c : Thread nD τ).loc main_arg9)) := by
  dsimp only [V, hostOps0]; after_results; rfl

/-- The region finds the bias row: the three bias vectors end to end, as one row. -/
theorem V_bias (c : Dev nD) : (V m c main_v5 : S1x1536.Idx → EReal)
    = shapeCast S1x1536 (concatenate S1536 0 [⟨S512, m ((c : Thread nD τ).loc main_arg4)⟩, ⟨S512, m ((c : Thread nD τ).loc main_arg7)⟩,
        ⟨S512, m ((c : Thread nD τ).loc main_arg10)⟩] concatenates_S512_S512_S512_S1536_d0) shapeCasts_S1536_S1x1536 := by
  dsimp only [V, hostOps0]; after_results; rfl

/-- Three vectors of 512 entries end to end, at position pre + j inside piece number k (which starts at pre): that piece at j. -/
theorem join_vec_piece (xs : List ((s : Shape) × (s.Idx → EReal))) (h : Shape.Concatenates (xs.map (·.1)) S1536 (0 : Fin 1))
    (k : ℕ) (hk : k < xs.length) (x : S512.Idx → EReal) (hx : xs[k] = ⟨S512, x⟩) (pre : ℕ)
    (hpre : (((xs.take k).map (·.1)).map fun s : Shape => if h : s.rank = S1536.rank then s.size ((0 : Fin 1).cast h.symm) else 0).sum = pre)
    (j : Fin 512) (cc : Fin 1536) (hc : pre + j.val = cc.val) :
    concatenate S1536 (0 : Fin 1) xs h (ix1 cc) = x (ix1 j) :=
  concatenate_apply_piece (t := S1536) (0 : Fin 1) xs h (ix1 cc) k hk S512 x hx rfl pre hpre (ix1 j)
    (fun b hb => absurd (Subsingleton.elim _ _) hb) hc

/-- One row of 1536 entries made from a vector of 1536: entry (0, c) is the vector's entry c. -/
theorem row_of_vec (v : S1536.Idx → EReal) (cc : Fin 1536) :
    shapeCast S1x1536 v shapeCasts_S1536_S1x1536 (ix2 0 cc) = v (ix1 cc) := by
  refine (shapeCast_addUnit_apply ![1536] v shapeCasts_S1536_S1x1536 (ix2 0 cc)).trans (congrArg v ?_)
  funext a; match a with | ⟨0, _⟩ => rfl

/-- The bias row the region finds, at the reset, update and candidate columns. -/
theorem bias_R (c : Dev nD) (j : Fin 512) : (V m c main_v5 : S1x1536.Idx → EReal) (ix2 0 (colR j)) = m ((c : Thread nD τ).loc main_arg4) (ix1 j) := by
  rw [V_bias, row_of_vec]
  exact join_vec_piece _ _ 0 (by simp) _ rfl 0 (by simp) j (colR j) (by simp)
theorem bias_Z (c : Dev nD) (j : Fin 512) : (V m c main_v5 : S1x1536.Idx → EReal) (ix2 0 (colZ j)) = m ((c : Thread nD τ).loc main_arg7) (ix1 j) := by
  rw [V_bias, row_of_vec]
  exact join_vec_piece _ _ 1 (by simp) _ rfl 512 (by simp) j (colZ j) rfl
theorem bias_N (c : Dev nD) (j : Fin 512) : (V m c main_v5 : S1x1536.Idx → EReal) (ix2 0 (colN j)) = m ((c : Thread nD τ).loc main_arg10) (ix1 j) := by
  rw [V_bias, row_of_vec]
  exact join_vec_piece _ _ 2 (by simp) _ rfl 1024 (by simp) j (colN j) rfl

end Cert.KernelIdeal.HostJoin

end
-- ==== Proof.RefStages.lean ====
/-
  The reference program's result, entry by entry: the host computes the two matrix products against the joined
  weights, takes the reset, update and candidate column blocks of each, adds the biases, and blends the candidate state
  with the previous one. Read one operation at a time at an index (b, j), every stage depends only on row b of the two
  row arguments, on the joined weights and on entry j of a bias, and the whole is the cell's new state.
-/
import proofs.«108295_j40003325395615_1_alg».proof.Proof.Gen.ReferenceIdeal.Run
import proofs.«108295_j40003325395615_1_alg».proof.Proof.Gen.ReferenceIdeal.Read
import proofs.«108295_j40003325395615_1_alg».proof.Proof.GruCell

noncomputable section

open Idealize.ShloMosaic Idealize.ShloMosaic.ValueIdx
open scoped BigOperators

namespace Cert.ReferenceIdeal.Stages

open Cert.ReferenceIdeal Cert.ReferenceIdeal.Read Cert.GruCell

/-! ## Where each stage reads its operands

A column block of a product at (b, j) reads the product at (b, off + j); the product at (b, c) sums over k the row
argument at (b, k) times the joined weights at (k, c); a bias repeated down the rows reads the bias at j. -/

theorem row_v2_v4 (i : S16384x512.Idx) (k : Fin 512) :
    lidx_main_v2 (idx_main_v4 i) k = ix2 (n0 := 16384) (n1 := 512) ⟨(i 0).val, (i 0).isLt⟩ k := by
  funext a; match a with | ⟨0, _⟩ => rfl | ⟨1, _⟩ => rfl
theorem col_v2_v4 (i : S16384x512.Idx) (k : Fin 512) :
    ridx_main_v2 (idx_main_v4 i) k = ix2 (n0 := 512) (n1 := 1536) k (colR ⟨(i 1).val, (i 1).isLt⟩) := by
  funext a; match a with | ⟨0, _⟩ => rfl | ⟨1, _⟩ => rfl
theorem row_v2_v16 (i : S16384x512.Idx) (k : Fin 512) :
    lidx_main_v2 (idx_main_v16 i) k = ix2 (n0 := 16384) (n1 := 512) ⟨(i 0).val, (i 0).isLt⟩ k := by
  funext a; match a with | ⟨0, _⟩ => rfl | ⟨1, _⟩ => rfl
theorem col_v2_v16 (i : S16384x512.Idx) (k : Fin 512) :
    ridx_main_v2 (idx_main_v16 i) k = ix2 (n0 := 512) (n1 := 1536) k (colZ ⟨(i 1).val, (i 1).isLt⟩) := by
  funext a; match a with | ⟨0, _⟩ => rfl | ⟨1, _⟩ => rfl
theorem row_v2_v28 (i : S16384x512.Idx) (k : Fin 512) :
    lidx_main_v2 (idx_main_v28 i) k = ix2 (n0 := 16384) (n1 := 512) ⟨(i 0).val, (i 0).isLt⟩ k := by
  funext a; match a with | ⟨0, _⟩ => rfl | ⟨1, _⟩ => rfl
theorem col_v2_v28 (i : S16384x512.Idx) (k : Fin 512) :
    ridx_main_v2 (idx_main_v28 i) k = ix2 (n0 := 512) (n1 := 1536) k (colN ⟨(i 1).val, (i 1).isLt⟩) := by
  funext a; match a with | ⟨0, _⟩ => rfl | ⟨1, _⟩ => rfl
theorem row_v3_v5 (i : S16384x512.Idx) (k : Fin 512) :
    lidx_main_v3 (idx_main_v5 i) k = ix2 (n0 := 16384) (n1 := 512) ⟨(i 0).val, (i 0).isLt⟩ k := by
  funext a; match a with | ⟨0, _⟩ => rfl | ⟨1, _⟩ => rfl
theorem col_v3_v5 (i : S16384x512.Idx) (k : Fin 512) :
    ridx_main_v3 (idx_main_v5 i) k = ix2 (n0 := 512) (n1 := 1536) k (colR ⟨(i 1).val, (i 1).isLt⟩) := by
  funext a; match a with | ⟨0, _⟩ => rfl | ⟨1, _⟩ => rfl
theorem row_v3_v17 (i : S16384x512.Idx) (k : Fin 512) :
    lidx_main_v3 (idx_main_v17 i) k = ix2 (n0 := 16384) (n1 := 512) ⟨(i 0).val, (i 0).isLt⟩ k := by
  funext a; match a with | ⟨0, _⟩ => rfl | ⟨1, _⟩ => rfl
theorem col_v3_v17 (i : S16384x512.Idx) (k : Fin 512) :
    ridx_main_v3 (idx_main_v17 i) k = ix2 (n0 := 512) (n1 := 1536) k (colZ ⟨(i 1).val, (i 1).isLt⟩) := by
  funext a; match a with | ⟨0, _⟩ => rfl | ⟨1, _⟩ => rfl
theorem row_v3_v29 (i : S16384x512.Idx) (k : Fin 512) :
    lidx_main_v3 (idx_main_v29 i) k = ix2 (n0 := 16384) (n1 := 512) ⟨(i 0).val, (i 0).isLt⟩ k := by
  funext a; match a with | ⟨0, _⟩ => rfl | ⟨1, _⟩ => rfl
theorem col_v3_v29 (i : S16384x512.Idx) (k : Fin 512) :
    ridx_main_v3 (idx_main_v29 i) k = ix2 (n0 := 512) (n1 := 1536) k (colN ⟨(i 1).val, (i 1).isLt⟩) := by
  funext a; match a with | ⟨0, _⟩ => rfl | ⟨1, _⟩ => rfl
theorem bias_v7_v8 (i : S16384x512.Idx) :
    idx_main_v7 (idx_main_v8 i) = ix1 (n := 512) ⟨(i 1).val, (i 1).isLt⟩ := by
  funext a; match a with | ⟨0, _⟩ => rfl
theorem bias_v19_v20 (i : S16384x512.Idx) :
    idx_main_v19 (idx_main_v20 i) = ix1 (n := 512) ⟨(i 1).val, (i 1).isLt⟩ := by
  funext a; match a with | ⟨0, _⟩ => rfl
theorem bias_v32_v33 (i : S16384x512.Idx) :
    idx_main_v32 (idx_main_v33 i) = ix1 (n := 512) ⟨(i 1).val, (i 1).isLt⟩ := by
  funext a; match a with | ⟨0, _⟩ => rfl

/-! ## The result is the cell's new state -/

theorem result_eq (x0 x1 : (⟨S16384x512, .f32⟩ : BufTy).Contents (Elt Ideal)) (x2 x3 : (⟨S512x512, .f32⟩ : BufTy).Contents (Elt Ideal))
    (x4 : (⟨S512, .f32⟩ : BufTy).Contents (Elt Ideal)) (x5 x6 : (⟨S512x512, .f32⟩ : BufTy).Contents (Elt Ideal))
    (x7 : (⟨S512, .f32⟩ : BufTy).Contents (Elt Ideal)) (x8 x9 : (⟨S512x512, .f32⟩ : BufTy).Contents (Elt Ideal))
    (x10 : (⟨S512, .f32⟩ : BufTy).Contents (Elt Ideal)) :
    val_main_v40 (F := Ideal) x0 x1 x2 x3 x4 x5 x6 x7 x8 x9 x10
      = newState x0 x1 (val_main_v0 (F := Ideal) x2 x5 x8) (val_main_v1 (F := Ideal) x3 x6 x9)
          (fun j => x4 (ix1 j)) (fun j => x7 (ix1 j)) (fun j => x10 (ix1 j)) := by
  funext i
  simp only [val_main_cst_0_apply, val_main_cst_1_apply, val_main_cst_2_apply, val_main_cst_3_apply, val_main_cst_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v2_apply, val_main_v30_apply, val_main_v31_apply, val_main_v32_apply, val_main_v33_apply, val_main_v34_apply, val_main_v35_apply, val_main_v36_apply, val_main_v37_apply, val_main_v38_apply, val_main_v39_apply, val_main_v3_apply, val_main_v40_apply, val_main_v4_apply, val_main_v5_apply, val_main_v6_apply, val_main_v7_apply, val_main_v8_apply, val_main_v9_apply]
  simp only [row_v2_v4, col_v2_v4, row_v2_v16, col_v2_v16, row_v2_v28, col_v2_v28, row_v3_v5, col_v3_v5, row_v3_v17, col_v3_v17, row_v3_v29, col_v3_v29, bias_v7_v8, bias_v19_v20, bias_v32_v33]
  have hi : x1 (ix2 (n0 := 16384) (n1 := 512) ⟨(i 0).val, (i 0).isLt⟩ ⟨(i 1).val, (i 1).isLt⟩) = x1 i :=
    congrArg x1 (funext fun a => match a with | ⟨0, _⟩ => rfl | ⟨1, _⟩ => rfl)
  unfold newState cellAt gate
  dsimp only
  rw [hi]
  simp only [Ideal.addf_def, Ideal.subf_def, Ideal.mulf_def, Ideal.hostDivf_def, Ideal.hostUnary_exp_def,
    Ideal.hostUnary_tanh_def, Ideal.hostNegf_def, Ideal.negf_def, Ideal.ofBits_def]

end Cert.ReferenceIdeal.Stages

end
-- ==== Proof.Bridge.lean ====
/-
  The idealized kernel program and the idealized reference compute one function of the eleven arguments.

  The kernel's result array ends at the cell's new state of what its region finds; what it finds is the two row arguments
  as launched, the weight matrices joined side by side, and the bias vectors end to end. The reference's result is the
  cell's new state of the same row arguments, the same joins (it makes them itself), and the same biases. With the
  arguments agreeing, the two are the same term.
-/
import proofs.«108295_j40003325395615_1_alg».proof.Proof.KernelResult
import proofs.«108295_j40003325395615_1_alg».proof.Proof.HostJoin
import proofs.«108295_j40003325395615_1_alg».proof.Proof.RefStages

noncomputable section

open Idealize.ShloMosaic Idealize.ShloMosaic.ValueIdx Idealize.ShloMosaic.TcCoe Idealize.SL.Sem

namespace Cert.Bridge

open Cert.GruCell

/-- The kernel program's result as a function of the launch contents of its eleven arguments. -/
theorem outArr_eq (m : (ℓ : Loc Cert.KernelIdeal.nD Cert.KernelIdeal.τ Cert.KernelIdeal.sig) → Buf (Elt Ideal) ℓ) (c : Dev Cert.KernelIdeal.nD) :
    Cert.KernelIdeal.Result.outArr m c
      = newState (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (Cert.KernelIdeal.HostJoin.join3 (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)))
          (Cert.KernelIdeal.HostJoin.join3 (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)))
          (fun j => (m ((c.tc : Thread Cert.KernelIdeal.nD Cert.KernelIdeal.τ).loc Cert.KernelIdeal.main_arg4)) (ix1 j)) (fun j => (m ((c.tc : Thread Cert.KernelIdeal.nD Cert.KernelIdeal.τ).loc Cert.KernelIdeal.main_arg7)) (ix1 j)) (fun j => (m ((c.tc : Thread Cert.KernelIdeal.nD Cert.KernelIdeal.τ).loc Cert.KernelIdeal.main_arg10)) (ix1 j)) := by
  unfold Cert.KernelIdeal.Result.outArr
  have hR : (fun j : Fin 512 => (Cert.KernelIdeal.Hand.V m c Cert.KernelIdeal.main_v5 : Cert.KernelIdeal.S1x1536.Idx → EReal) (ix2 0 (colR j)))
      = fun j => (m ((c.tc : Thread Cert.KernelIdeal.nD Cert.KernelIdeal.τ).loc Cert.KernelIdeal.main_arg4)) (ix1 j) := funext fun j => Cert.KernelIdeal.HostJoin.bias_R m c j
  have hZ : (fun j : Fin 512 => (Cert.KernelIdeal.Hand.V m c Cert.KernelIdeal.main_v5 : Cert.KernelIdeal.S1x1536.Idx → EReal) (ix2 0 (colZ j)))
      = fun j => (m ((c.tc : Thread Cert.KernelIdeal.nD Cert.KernelIdeal.τ).loc Cert.KernelIdeal.main_arg7)) (ix1 j) := funext fun j => Cert.KernelIdeal.HostJoin.bias_Z m c j
  have hN : (fun j : Fin 512 => (Cert.KernelIdeal.Hand.V m c Cert.KernelIdeal.main_v5 : Cert.KernelIdeal.S1x1536.Idx → EReal) (ix2 0 (colN j)))
      = fun j => (m ((c.tc : Thread Cert.KernelIdeal.nD Cert.KernelIdeal.τ).loc Cert.KernelIdeal.main_arg10)) (ix1 j) := funext fun j => Cert.KernelIdeal.HostJoin.bias_N m c j
  rw [hR, hZ, hN, Cert.KernelIdeal.Hand.V_main_arg0, Cert.KernelIdeal.Hand.V_main_arg1, Cert.KernelIdeal.HostJoin.V_wi, Cert.KernelIdeal.HostJoin.V_wh]

/-- From memories agreeing on the eleven arguments, the reference's result is the kernel program's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v40 m' c = Cert.KernelIdeal.Result.outArr m c := by
  rw [Cert.ReferenceIdeal.Read.val_main_v40_eq, Cert.ReferenceIdeal.Stages.result_eq, outArr_eq,
    h.1, h.2.1, h.2.2.1, h.2.2.2.1, h.2.2.2.2.1, h.2.2.2.2.2.1, h.2.2.2.2.2.2.1, h.2.2.2.2.2.2.2.1, h.2.2.2.2.2.2.2.2.1,
    h.2.2.2.2.2.2.2.2.2.1, h.2.2.2.2.2.2.2.2.2.2]
  rfl

end Cert.Bridge

end
-- ==== Proof.lean ====
/-
  A gated recurrent cell over a batch of 16384 rows and 512 features: the kernel program joins the six weight matrices
  into two (input side and hidden side, 512 by 1536) and the three biases into one row, then computes the new state
  block by block, 512 rows at a time, inside one pipelined region; the reference computes the same with whole-array
  operations.

  The three frames: the kernel program, read at machine words and read at the ideal values, runs its six host
  operations and its 32-point region to the end and leaves its eleven arguments as they were (one text, read at either
  kind of value); the reference is a straight line of host operations. Nothing was rewritten on the way from the kernel
  program to its idealization, so that claim is empty. Over the extended reals both programs end with entry (b, j) of
  the result at
      (1 - z) * tanh (gi_n + r * gh_n + b_n) + z * h,
  with r and z the logistic function of gi_r + gh_r + b_r and of gi_z + gh_z + b_z, and gi, gh the products of rows b
  of x and h with the joined weights: the same operations in the same order on both sides, the kernel's logistic being
  the reference's quotient 1 / (1 + e^(-a)), and its narrowing of the products' operands the identity. No law that fails
  at an infinity is used, so the inputs' finiteness is not needed.
-/
import proofs.«108295_j40003325395615_1_alg».proof.Defs
import proofs.«108295_j40003325395615_1_alg».proof.Proof.Gen.Kernel
import proofs.«108295_j40003325395615_1_alg».proof.Proof.Gen.KernelIdeal
import proofs.«108295_j40003325395615_1_alg».proof.Proof.Gen.ReferenceIdeal
import proofs.«108295_j40003325395615_1_alg».proof.Proof.Gen.ReferenceIdeal.Run
import proofs.«108295_j40003325395615_1_alg».proof.Proof.Gen.Pre_finite_inputs
import proofs.«108295_j40003325395615_1_alg».proof.Proof.KernelFrame
import proofs.«108295_j40003325395615_1_alg».proof.Proof.KernelIdealFrame
import proofs.«108295_j40003325395615_1_alg».proof.Proof.KernelResult
import proofs.«108295_j40003325395615_1_alg».proof.Proof.Bridge
import Idealize.ShloMosaic.Adequacy
import Idealize.ShloMosaic.Init

noncomputable section

namespace Cert.Proof

open Idealize.ShloMosaic Idealize.SL.Sem

/-- The word-level kernel program runs to the end and keeps its arguments. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the cell's new state of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.outArr m c, Cert.KernelIdeal.Result.run_value m ρ, ?_⟩
  exact (θ_run Cert.ReferenceIdeal.defs _ _).mono
    (fun _ h c => ⟨(h c).1.trans (Cert.Bridge.same_result m m' c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
